-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x1000000 : Shape := ⟨2, ![2, 1000000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg2 : IVec S2x1000000 32) (main_arg5 : FVec F S1x256 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x1000000 32 := broadcastInDim S2x1000000 ![] bcast_S_S2x1000000 main_c_10
  let main_v30 : IVec S2x1000000 1 := cmpi .sge main_arg2 main_v29
  let main_c_11 : IVec S_ 1 := constantI S_ 1 1#1
  let main_v31 : IVec S_ 1 := (fun x v => Host.reduce IntOp.andi x v reducesTo_S2x1000000_S_d0_1 h_S_) main_v30 main_c_11
  let main_v32 : IVec S_ 1 := andi main_v28 main_v31
  main_v32

def fn {F : FTy → Type} [FloatOps F] (main_arg0 : FVec F S20000x128 .f32) (main_arg1 : FVec F S20000x128 .f32) (main_arg2 : IVec S2x1000000 32) (main_arg3 : FVec F S256x256 .f32) (main_arg4 : FVec F S256 .f32) (main_arg5 : FVec F S1x256 .f32) (main_arg6 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S20000x128 : Shape := ⟨2, ![20000, 128]⟩
abbrev S2x1000000 : Shape := ⟨2, ![2, 1000000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1003520 : Shape := ⟨1, ![1003520]⟩
abbrev S1003520x1 : Shape := ⟨2, ![1003520, 1]⟩
abbrev S1003520x128 : Shape := ⟨2, ![1003520, 128]⟩
abbrev S128x256 : Shape := ⟨2, ![128, 256]⟩
abbrev S1x1 : Shape := ⟨2, ![1, 1]⟩
abbrev S1x1003520 : Shape := ⟨2, ![1, 1003520]⟩
abbrev S4096x128 : Shape := ⟨2, ![4096, 128]⟩
abbrev S1x4096 : Shape := ⟨2, ![1, 4096]⟩
abbrev S4096x256 : Shape := ⟨2, ![4096, 256]⟩
abbrev S1000000x1 : Shape := ⟨2, ![1000000, 1]⟩

abbrev nBuf : Space → Nat
  | .hbm => 63
  | .vmem => 11
  | .smem => 0
  | _ => 0

abbrev bufTy : (tb : Table) → Fin (tcTables nBuf tb) → BufTy
  | .hbm, ⟨0, _⟩ => ⟨S20000x128, .f32⟩
  | .hbm, ⟨1, _⟩ => ⟨S20000x128, .f32⟩
  | .hbm, ⟨2, _⟩ => ⟨S2x1000000, .i32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S20000x128, .bf16⟩
  | .hbm, ⟨8, _⟩ => ⟨S20000x128, .bf16⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S_, .i32⟩
  | .hbm, ⟨30, _⟩ => ⟨S_, .i32⟩
  | .hbm, ⟨31, _⟩ => ⟨S1003520, .i32⟩
  | .hbm, ⟨32, _⟩ => ⟨S_, .i32⟩
  | .hbm, ⟨33, _⟩ => ⟨S_, .i32⟩
  | .hbm, ⟨34, _⟩ => ⟨S1003520, .i32⟩
  | .hbm, ⟨35, _⟩ => ⟨S_, .i32⟩
  | .hbm, ⟨36, _⟩ => ⟨S1003520, .i32⟩
  | .hbm, ⟨37, _⟩ => ⟨S1003520, .i1⟩
  | .hbm, ⟨38, _⟩ => ⟨S_, .i32⟩
  | .hbm, ⟨39, _⟩ => ⟨S1003520, .i32⟩
  | .hbm, ⟨40, _⟩ => ⟨S1003520, .i32⟩
  | .hbm, ⟨41, _⟩ => ⟨S1003520, .i32⟩
  | .hbm, ⟨42, _⟩ => ⟨S1003520x1, .i32⟩
  | .hbm, ⟨43, _⟩ => ⟨S1003520x128, .bf16⟩
  | .hbm, ⟨44, _⟩ => ⟨S_, .i32⟩
  | .hbm, ⟨45, _⟩ => ⟨S1003520, .i32⟩
  | .hbm, ⟨46, _⟩ => ⟨S1003520, .i1⟩
  | .hbm, ⟨47, _⟩ => ⟨S_, .i32⟩
  | .hbm, ⟨48, _⟩ => ⟨S1003520, .i32⟩
  | .hbm, ⟨49, _⟩ => ⟨S1003520, .i32⟩
  | .hbm, ⟨50, _⟩ => ⟨S1003520, .i32⟩
  | .hbm, ⟨51, _⟩ => ⟨S1003520x1, .i32⟩
  | .hbm, ⟨52, _⟩ => ⟨S1003520x128, .bf16⟩
  | .hbm, ⟨53, _⟩ => ⟨S256x256, .f32⟩
  | .hbm, ⟨54, _⟩ => ⟨S256x256, .bf16⟩
  | .hbm, ⟨55, _⟩ => ⟨S128x256, .bf16⟩
  | .hbm, ⟨56, _⟩ => ⟨S128x256, .bf16⟩
  | .hbm, ⟨57, _⟩ => ⟨S1x256, .f32⟩
  | .hbm, ⟨58, _⟩ => ⟨S1x256, .bf16⟩
  | .hbm, ⟨59, _⟩ => ⟨S1x1, .f32⟩
  | .hbm, ⟨60, _⟩ => ⟨S1x1003520, .f32⟩
  | .hbm, ⟨61, _⟩ => ⟨S1003520x1, .f32⟩
  | .hbm, ⟨62, _⟩ => ⟨S1000000x1, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S1x256, .bf16⟩
  | .local _ .vmem, ⟨8, _⟩ => ⟨S1x1, .f32⟩
  | .local _ .vmem, ⟨9, _⟩ => ⟨S1x4096, .f32⟩
  | .local _ .vmem, ⟨10, _⟩ => ⟨S1x4096, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v7 : Ref sig .tc := ⟨.hbm, 28, rfl⟩
abbrev main_c_3 : Ref sig .tc := ⟨.hbm, 29, rfl⟩
abbrev main_call2_v0 : Ref sig .tc := ⟨.hbm, 30, rfl⟩
abbrev main_v8 : Ref sig .tc := ⟨.hbm, 31, rfl⟩
abbrev main_c_4 : Ref sig .tc := ⟨.hbm, 32, rfl⟩
abbrev main_call3_v0 : Ref sig .tc := ⟨.hbm, 33, rfl⟩
abbrev main_v9 : Ref sig .tc := ⟨.hbm, 34, rfl⟩
abbrev main_c_5 : Ref sig .tc := ⟨.hbm, 35, rfl⟩
abbrev main_v10 : Ref sig .tc := ⟨.hbm, 36, rfl⟩
abbrev main_v11 : Ref sig .tc := ⟨.hbm, 37, rfl⟩
abbrev main_c_6 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_7 : Ref sig .tc := ⟨.hbm, 44, rfl⟩
abbrev main_v17 : Ref sig .tc := ⟨.hbm, 45, rfl⟩
abbrev main_v18 : Ref sig .tc := ⟨.hbm, 46, rfl⟩
abbrev main_c_8 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  pads_S1000000_S1003520_035200 : S1000000.Pads (![0] : Fin 1 → Nat) ![3520] ![0] S1003520
  h_S_ : 0 < S_.numel
  bcast_S_S1003520 : S_.BroadcastsInDim S1003520 (![] : Fin 0 → Fin S1003520.rank)
  bcast_S1003520_S1003520x1_0 : S1003520.BroadcastsInDim S1003520x1 (![0] : Fin 1 → Fin S1003520x1.rank)
  transposes_S256x256_S256x256_1_0 : S256x256.Transposes [1, 0] S256x256
  slices_S256x256_S128x256_0_0 : S256x256.Slices ![0, 0] S128x256
  slices_S256x256_S128x256_128_0 : S256x256.Slices ![128, 0] S128x256
  shapeCasts_S256_S1x256 : S256.ShapeCasts S1x256
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  transposes_S1x1003520_S1003520x1_1_0 : S1x1003520.Transposes [1, 0] S1003520x1
  slices_S1003520x1_S1000000x1_0_0 : S1003520x1.Slices ![0, 0] S1000000x1
  gather_S20000x128_S1003520x1_S1003520x128_1_0_n_n_0_1_1128_wf : GatherDims.WF S20000x128 S1003520x1 S1003520x128 [1] [0] [] [0] [] 1 ![1, 128]
  dot_S4096x128_S128x256_S4096x256_1_0_0_1_n_n_wf : DotDims.WF S4096x128 S128x256 S4096x256 [1] [0] [0] [1] [] []
  dot_S1x256_S4096x256_S1x4096_1_1_0_0_n_n_wf : DotDims.WF S1x256 S4096x256 S1x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .bf16 = 32 ∨ (Rect.block (s := S1003520x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1003520x128.size a
  hwx0_1 : ∀ i : grid0.Coords, EltTy.bits .bf16 = 32 ∨ (Rect.block (s := S1003520x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .bf16 = 32 ∨ (Rect.block (s := S1x256) S1x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x1003520.size a
  hwx0_7 : ∀ i : grid0.Coords, EltTy.bits .f32 = 32 ∨ (Rect.block (s := S1x1003520) S1x4096.size (cc0_transform_7 i) (hinb0_7 i)).WholeWords (EltTy.packing .f32)

variable [Facts₀]

def gather_S20000x128_S1003520x1_S1003520x128_1_0_n_n_0_1_1128 : GatherDims S20000x128 S1003520x1 S1003520x128 where
  offsetDims := [1]
  collapsedSliceDims := [0]
  operandBatchingDims := []
  startIndicesBatchingDims := []
  startIndexMap := [0]
  indexVectorDim := 1
  sliceSizes := ![1, 128]
  wf := gather_S20000x128_S1003520x1_S1003520x128_1_0_n_n_0_1_1128_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S1x256_S4096x256_S1x4096_1_1_0_0_n_n : DotDims S1x256 S4096x256 S1x4096 where
  lhsContracting := [1]
  rhsContracting := [1]
  lhsNonContracting := [0]
  rhsNonContracting := [0]
  lhsBatch := []
  rhsBatch := []
  wf := dot_S1x256_S4096x256_S1x4096_1_1_0_0_n_n_wf

abbrev win0_0 : Pipeline.Window sig grid0 :=
  Pipeline.Window.ofSpec (Memref.whole main_v16) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S20000x128 : Shape := ⟨2, ![20000, 128]⟩
abbrev S2x1000000 : Shape := ⟨2, ![2, 1000000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x1 : Shape := ⟨2, ![256, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x128, .f32⟩
  | .hbm, ⟨2, _⟩ => ⟨S2x1000000, .i32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x128, .f32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x256, .f32⟩
  | .hbm, ⟨30, _⟩ => ⟨S256x256, .f32⟩
  | .hbm, ⟨31, _⟩ => ⟨S1000000x256, .f32⟩
  | .hbm, ⟨32, _⟩ => ⟨S1x256, .f32⟩
  | .hbm, ⟨33, _⟩ => ⟨S1000000x256, .f32⟩
  | .hbm, ⟨34, _⟩ => ⟨S1000000x256, .f32⟩
  | .hbm, ⟨35, _⟩ => ⟨S_, .f32⟩
  | .hbm, ⟨36, _⟩ => ⟨S1000000x256, .f32⟩
  | .hbm, ⟨37, _⟩ => ⟨S1000000x256, .f32⟩
  | .hbm, ⟨38, _⟩ => ⟨S256x1, .f32⟩
  | .hbm, ⟨39, _⟩ => ⟨S1000000x1, .f32⟩
  | .hbm, ⟨40, _⟩ => ⟨S1x1, .f32⟩
  | .hbm, ⟨41, _⟩ => ⟨S1000000x1, .f32⟩
  | .hbm, ⟨42, _⟩ => ⟨S1000000x1, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x128_S1000000x256_d1 : Shape.Concatenates [S1000000x128, S1000000x128] S1000000x256 1
  transposes_S256x256_S256x256_1_0 : S256x256.Transposes [1, 0] S256x256
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  transposes_S1x256_S256x1_1_0 : S1x256.Transposes [1, 0] S256x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S20000x128_S1000000x1_S1000000x128_1_0_n_n_0_1_1128_wf : GatherDims.WF S20000x128 S1000000x1 S1000000x128 [1] [0] [] [0] [] 1 ![1, 128]
  dot_S1000000x256_S256x256_S1000000x256_1_0_0_1_n_n_wf : DotDims.WF S1000000x256 S256x256 S1000000x256 [1] [0] [0] [1] [] []
  dot_S1000000x256_S256x1_S1000000x1_1_0_0_1_n_n_wf : DotDims.WF S1000000x256 S256x1 S1000000x1 [1] [0] [0] [1] [] []

variable [Facts₀]

def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def dot_S1000000x256_S256x256_S1000000x256_1_0_0_1_n_n : DotDims S1000000x256 S256x256 S1000000x256 where
  lhsContracting := [1]
  rhsContracting := [0]
  lhsNonContracting := [0]
  rhsNonContracting := [1]
  lhsBatch := []
  rhsBatch := []
  wf := dot_S1000000x256_S256x256_S1000000x256_1_0_0_1_n_n_wf
def dot_S1000000x256_S256x1_S1000000x1_1_0_0_1_n_n : DotDims S1000000x256 S256x1 S1000000x1 where
  lhsContracting := [1]
  rhsContracting := [0]
  lhsNonContracting := [0]
  rhsNonContracting := [1]
  lhsBatch := []
  rhsBatch := []
  wf := dot_S1000000x256_S256x1_S1000000x1_1_0_0_1_n_n_wf

class Facts : Prop extends Facts₀ where

variable [Facts]
-- ==== Proof.IndexDomain.lean ====
/-
  THE INDEX DOMAIN, READ OFF THE PRECONDITION. The precondition is a conjunction of `jnp.all`s; its last conjunct says
  that every entry of the 2 × 1000000 table of node numbers is ≥ 0 as a signed 32-bit integer. The conjunction being 1
  makes that last `all` 1, an `all` that is 1 had a 1 at every position, and a signed `≥ 0` comparison that is 1 says
  the word's signed value is not negative.
-/
import proofs.«430565_j47974784696844_3_alg».proof.Pre_finite_inputs
import Idealize.ShloMosaic.Lib.ReduceAll
import Idealize.ShloMosaic.Lib.StableHlo.Predicate
import Idealize.ShloMosaic.Lib.ValueIdx

noncomputable section

namespace Cert.IndexDomain

open Idealize.ShloMosaic Cert.Pre_finite_inputs

instance : Subsingleton S_.Idx := ⟨fun a b => funext fun d => d.elim0⟩

variable {F : FTy → Type} [FloatOps F] [Cert.Pre_finite_inputs.Facts]

/-- Under the precondition no node number is negative. -/
theorem nonneg_of_pre (x0 x1 : FVec F S20000x128 .f32) (x2 : IVec S2x1000000 32) (x3 : FVec F S256x256 .f32)
    (x4 : FVec F S256 .f32) (x5 : FVec F S1x256 .f32) (x6 : FVec F S1 .f32)
    (h : Cert.Pre_finite_inputs.fn (F := F) x0 x1 x2 x3 x4 x5 x6 = fun _ => 1#1) (i : S2x1000000.Idx) :
    0 ≤ (x2 i).toInt := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  have h3 : BitVec.ofBool ((0#32).sle (x2 i)) = 1#1 := h2
  rw [StableHlo.Predicate.ofBool_eq_one_iff] at h3
  have h4 : (0#32 : BitVec 32).toInt ≤ (x2 i).toInt := by simpa [BitVec.sle] using h3
  simpa using h4

end Cert.IndexDomain

end
-- ==== Proof.KernelPayload.lean ====
/-
  WHAT ONE GRID POINT COMPUTES. The body loads a tile of 4096 gathered disease rows `x0` and 4096 gathered drug rows
  `x1` (128 features each), the two halves `x2`, `x3` of the transposed first-layer weights (128 × 256 each), the
  first-layer bias row `x4`, the second-layer weight row `x5` and the second-layer bias `x6`, and stores one row of
  4096 scores. Read at column q on the extended reals, where the matrix unit's products into a zero accumulator are
  plain sums and the narrowing to bf16 is the identity, the stored value is

      Σ_j x5[0, j] · max((Σ_k x0[q, k] · x2[k, j] + Σ_k x1[q, k] · x3[k, j]) + x4[0, j], 0) + x6[0, 0].

  The second product contracts the LAST axis of both operands (the hidden units of the weight row against the hidden
  units of tile row q), so no transpose is ever formed.
-/
import proofs.«430565_j47974784696844_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The first-layer products: tile rows against a 128 × 256 half of the weights -/

theorem lhs_first_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_first_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs_first_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs_first_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- Rows times a half of the weights, into a zero accumulator, at entry (r, j): the sum over the 128 features. -/
theorem first_apply (x : FVec Ideal S4096x128 .bf16) (w : FVec Ideal S128x256 .bf16) (r : Fin 4096) (j : Fin 256) :
    matmul dot_S4096x128_S128x256_S4096x256_1_0_0_1_n_n none x w (constant S4096x256 .f32 0x00000000#32) (ix2 r j)
      = ∑ k : Fin 128, x (ix2 r k) * w (ix2 k j) := by
  show FloatOps.matmul _ _ _ _ _ _ = _
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r j) ((contrEquiv1 dot_S4096x128_S128x256_S4096x256_1_0_0_1_n_n 128 rfl rfl).symm k) = ix2 r k := funext fun a => Fin.ext (by
    match a with
    | ⟨0, _⟩ => exact lhs_first_0 _ _
    | ⟨1, _⟩ => exact (lhs_first_1 _ _).trans hk)
  have er : dot_S4096x128_S128x256_S4096x256_1_0_0_1_n_n.rhsIdx (ix2 r j) ((contrEquiv1 dot_S4096x128_S128x256_S4096x256_1_0_0_1_n_n 128 rfl rfl).symm k) = ix2 k j := funext fun a => Fin.ext (by
    match a with
    | ⟨0, _⟩ => exact (rhs_first_0 _ _).trans hk
    | ⟨1, _⟩ => exact rhs_first_1 _ _)
  rw [el, er]

/-! ## The second-layer product: the weight row against the hidden units, both on their last axis -/

theorem lhs_second_0 (i : S1x4096.Idx) (q : dot_S1x256_S4096x256_S1x4096_1_1_0_0_n_n.contr.Idx) :
    (dot_S1x256_S4096x256_S1x4096_1_1_0_0_n_n.lhsIdx i q 0).val = (i 0).val := by
  unfold DotDims.lhsIdx
  rw [dif_neg (show ¬(0 : Fin S1x256.rank) ∈ dot_S1x256_S4096x256_S1x4096_1_1_0_0_n_n.lhsBatch by decide), dif_pos (show (0 : Fin S1x256.rank) ∈ dot_S1x256_S4096x256_S1x4096_1_1_0_0_n_n.lhsNonContracting by decide)]
  rfl
theorem lhs_second_1 (i : S1x4096.Idx) (q : dot_S1x256_S4096x256_S1x4096_1_1_0_0_n_n.contr.Idx) :
    (dot_S1x256_S4096x256_S1x4096_1_1_0_0_n_n.lhsIdx i q 1).val = (q ⟨0, by decide⟩).val :=
  dot_S1x256_S4096x256_S1x4096_1_1_0_0_n_n.lhsIdx_val_of_single rfl i q
theorem rhs_second_0 (i : S1x4096.Idx) (q : dot_S1x256_S4096x256_S1x4096_1_1_0_0_n_n.contr.Idx) :
    (dot_S1x256_S4096x256_S1x4096_1_1_0_0_n_n.rhsIdx i q 0).val = (i 1).val := by
  unfold DotDims.rhsIdx
  rw [dif_neg (show ¬(0 : Fin S4096x256.rank) ∈ dot_S1x256_S4096x256_S1x4096_1_1_0_0_n_n.rhsBatch by decide), dif_pos (show (0 : Fin S4096x256.rank) ∈ dot_S1x256_S4096x256_S1x4096_1_1_0_0_n_n.rhsNonContracting by decide)]
  rfl
theorem rhs_second_1 (i : S1x4096.Idx) (q : dot_S1x256_S4096x256_S1x4096_1_1_0_0_n_n.contr.Idx) :
    (dot_S1x256_S4096x256_S1x4096_1_1_0_0_n_n.rhsIdx i q 1).val = (q ⟨0, by decide⟩).val :=
  dot_S1x256_S4096x256_S1x4096_1_1_0_0_n_n.rhsIdx_val_of_single rfl i q

/-- The weight row times the hidden units of tile row q, into a zero accumulator: the sum over the 256 units. -/
theorem second_apply (w : FVec Ideal S1x256 .bf16) (h : FVec Ideal S4096x256 .bf16) (q : Fin 4096) :
    matmul dot_S1x256_S4096x256_S1x4096_1_1_0_0_n_n none w h (constant S1x4096 .f32 0x00000000#32) (ix2 (0 : Fin 1) q)
      = ∑ j : Fin 256, w (ix2 (0 : Fin 1) j) * h (ix2 q j) := by
  show FloatOps.matmul _ _ _ _ _ _ = _
  rw [Ideal.matmul_constant_zero_apply, ← Equiv.sum_comp (contrEquiv1 dot_S1x256_S4096x256_S1x4096_1_1_0_0_n_n 256 rfl rfl).symm]
  refine Finset.sum_congr rfl fun k _ => ?_
  have hk := contrEquiv1_symm_val dot_S1x256_S4096x256_S1x4096_1_1_0_0_n_n 256 rfl rfl k
  have el : dot_S1x256_S4096x256_S1x4096_1_1_0_0_n_n.lhsIdx (ix2 (0 : Fin 1) q) ((contrEquiv1 dot_S1x256_S4096x256_S1x4096_1_1_0_0_n_n 256 rfl rfl).symm k) = ix2 (0 : Fin 1) k := funext fun a => Fin.ext (by
    match a with
    | ⟨0, _⟩ => exact lhs_second_0 _ _
    | ⟨1, _⟩ => exact (lhs_second_1 _ _).trans hk)
  have er : dot_S1x256_S4096x256_S1x4096_1_1_0_0_n_n.rhsIdx (ix2 (0 : Fin 1) q) ((contrEquiv1 dot_S1x256_S4096x256_S1x4096_1_1_0_0_n_n 256 rfl rfl).symm k) = ix2 q k := funext fun a => Fin.ext (by
    match a with
    | ⟨0, _⟩ => exact rhs_second_0 _ _
    | ⟨1, _⟩ => exact (rhs_second_1 _ _).trans hk)
  rw [el, er]

/-! ## The two bias rows laid over the tile -/

/-- The first-layer bias row laid over 4096 rows reads, at (r, j), the row's entry j. -/
theorem bias1_apply (b : FVec Ideal S1x256 .f32) (r : Fin 4096) (j : Fin 256) :
    broadcastTo S4096x256 b broadcasts_S1x256_S4096x256 (ix2 r j) = b (ix2 (0 : Fin 1) j) :=
  broadcastTo_apply b broadcasts_S1x256_S4096x256 (ix2 r j) (ix2 (0 : Fin 1) j) (fun a => by
    match a with
    | ⟨0, _⟩ => show (0 : Nat) = if (1 : Nat) = 1 then 0 else _; rw [if_pos rfl]
    | ⟨1, _⟩ => show j.val = if (256 : Nat) = 1 then 0 else j.val; rw [if_neg (by decide)])

/-- The second-layer bias laid over 4096 columns reads the one entry everywhere. -/
theorem bias2_apply (b : FVec Ideal S1x1 .f32) (q : Fin 4096) :
    broadcastTo S1x4096 b broadcasts_S1x1_S1x4096 (ix2 (0 : Fin 1) q) = b (ix2 (0 : Fin 1) (0 : Fin 1)) :=
  broadcastTo_apply b broadcasts_S1x1_S1x4096 (ix2 (0 : Fin 1) q) (ix2 (0 : Fin 1) (0 : Fin 1)) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-! ## The stored row at a column -/

/-- The hidden units of tile row r. -/
def hidden (x0 x1 : Vec Ideal S4096x128 .bf16) (x2 x3 : Vec Ideal S128x256 .bf16) (x4 : Vec Ideal S1x256 .f32)
    (r : Fin 4096) (j : Fin 256) : EReal :=
  max ((∑ k : Fin 128, x0 (ix2 r k) * x2 (ix2 k j) + ∑ k : Fin 128, x1 (ix2 r k) * x3 (ix2 k j)) + x4 (ix2 (0 : Fin 1) j)) 0

/-- THE PAYLOAD AT COLUMN q. -/
theorem pay_apply (x0 x1 : Vec Ideal S4096x128 .bf16) (x2 x3 : Vec Ideal S128x256 .bf16) (x4 : Vec Ideal S1x256 .f32)
    (x5 : Vec Ideal S1x256 .bf16) (x6 : Vec Ideal S1x1 .f32) (q : Fin 4096) :
    k0_pay1 (F := Ideal) x0 x1 x2 x3 x4 x5 x6 (ix2 (0 : Fin 1) q)
      = (∑ j : Fin 256, x5 (ix2 (0 : Fin 1) j) * hidden x0 x1 x2 x3 x4 q j) + x6 (ix2 (0 : Fin 1) (0 : Fin 1)) := by
  unfold k0_pay1
  simp only [shapeCast_self]
  rw [addf_apply, second_apply, bias2_apply]
  congr 1
  refine Finset.sum_congr rfl fun j _ => ?_
  congr 1
  rw [truncf_apply, maximumf_apply, addf_apply, addf_apply, first_apply, first_apply, bias1_apply, broadcast_apply]
  show max _ (Ideal.ofBits .f32 0x00000000#32) = _
  rw [Ideal.ofBits_zero_f32]
  rfl

end Cert.KernelIdeal.Payload

end
-- ==== Proof.KernelBlocks.lean ====
/-
  THE ROW OF SCORES THE REGION LEAVES. The region's eighth array is one row of 1003520 scores (1000000 edges padded to
  245 tiles of 4096). Grid point t reads tile t of the two gathered feature arrays — rows 4096·t … 4096·t + 4095 — and
  the five small operands whole, and writes back columns 4096·t … 4096·t + 4095 of the row. So what point t writes is
  block t of ONE function of the seven arrays as the region finds them: column e holds the score of the gathered rows
  e. Every column e lies in the block of point e / 4096, so after the run the array IS that function.
-/
import proofs.«430565_j47974784696844_3_alg».proof.Proof.Gen.KernelIdeal.Frame
import proofs.«430565_j47974784696844_3_alg».proof.Proof.KernelPayload
import Idealize.ShloMosaic.Lib.Pipeline.Value

set_option maxRecDepth 16384

noncomputable section

namespace Cert.KernelIdeal.Blocks

open Cert.KernelIdeal Cert.KernelIdeal.Gen Cert.KernelIdeal.Payload Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The seven arrays the region reads, at their literal types -/

/-- The gathered disease rows, one per (padded) edge. -/
abbrev featD (c : Dev nD) : Vec Ideal S1003520x128 .bf16 := V m c main_v16
/-- The gathered drug rows. -/
abbrev featG (c : Dev nD) : Vec Ideal S1003520x128 .bf16 := V m c main_v23
/-- Rows 0..127 and rows 128..255 of the transposed first-layer weights. -/
abbrev w1a (c : Dev nD) : Vec Ideal S128x256 .bf16 := V m c main_v26
abbrev w1b (c : Dev nD) : Vec Ideal S128x256 .bf16 := V m c main_v27
/-- The first-layer bias as a row, the second-layer weights, the second-layer bias as a 1 × 1 array. -/
abbrev b1r (c : Dev nD) : Vec Ideal S1x256 .f32 := V m c main_v28
abbrev w2r (c : Dev nD) : Vec Ideal S1x256 .bf16 := V m c main_v29
abbrev b2r (c : Dev nD) : Vec Ideal S1x1 .f32 := V m c main_v30

/-- The row of scores as one function of the arrays: column e is the score of gathered rows e. -/
def scoreRow (f0 f1 : Vec Ideal S1003520x128 .bf16) (wa wb : Vec Ideal S128x256 .bf16) (b1 : Vec Ideal S1x256 .f32)
    (w2 : Vec Ideal S1x256 .bf16) (b2 : Vec Ideal S1x1 .f32) : Vec Ideal S1x1003520 .f32 := fun i =>
  (∑ j : Fin 256, w2 (ix2 (0 : Fin 1) j) * max ((∑ k : Fin 128, f0 (ix2 (i 1) k) * wa (ix2 k j)
      + ∑ k : Fin 128, f1 (ix2 (i 1) k) * wb (ix2 k j)) + b1 (ix2 (0 : Fin 1) j)) 0) + b2 (ix2 (0 : Fin 1) (0 : Fin 1))

/-- A tile's payload at column y is the row function at array column i, when tile row y of each gathered block is
    array row i of the gathered array. -/
theorem tile_score (x0 x1 : Vec Ideal S4096x128 .bf16) (x2 x3 : Vec Ideal S128x256 .bf16) (x4 : Vec Ideal S1x256 .f32)
    (x5 : Vec Ideal S1x256 .bf16) (x6 : Vec Ideal S1x1 .f32) (f0 f1 : Vec Ideal S1003520x128 .bf16)
    (i : S1x1003520.Idx) (y : S1x4096.Idx)
    (e0 : ∀ k : Fin 128, x0 (ix2 (y 1) k) = f0 (ix2 (i 1) k)) (e1 : ∀ k : Fin 128, x1 (ix2 (y 1) k) = f1 (ix2 (i 1) k)) :
    k0_pay1 (F := Ideal) x0 x1 x2 x3 x4 x5 x6 y = scoreRow f0 f1 x2 x3 x4 x5 x6 i := by
  obtain ⟨p, q, rfl⟩ : ∃ (p : Fin 1) (q : Fin 4096), y = ix2 p q := ⟨y 0, y 1, eq_ix2 y⟩
  obtain rfl : p = 0 := Subsingleton.elim _ _
  rw [pay_apply]
  unfold scoreRow Payload.hidden
  have e0' : ∀ k : Fin 128, x0 (ix2 q k) = f0 (ix2 (i 1) k) := e0
  have e1' : ∀ k : Fin 128, x1 (ix2 q k) = f1 (ix2 (i 1) k) := e1
  simp only [e0', e1']

/-! ## What a point writes back -/

theorem hz : (![0, 0] : Fin 2 → Nat) = fun _ => 0 := funext fun a => by fin_cases a <;> rfl

/-- The printed index maps over the 245 points: the two gathered arrays and the score row move one block per point
    along their long axis; the five small operands stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Window 2's block at any point is its array whole (its block index never moves). -/
theorem blk2_whole (c : Dev nD) (t : Fin cfg0.N) : (iblk m c 2 t : Vec Ideal S128x256 .bf16) = w1a m c := by
  obtain ⟨e00, e01, e10, e11, e20, e21, e30, e31, e40, e41, e50, e51, e60, e61, e70, e71⟩ := idx_facts t
  funext y
  show V m c main_v26 (((cfg0.win 2).blk t).view.emb y) = V m c main_v26 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- Window 3's block at any point is its array whole (its block index never moves). -/
theorem blk3_whole (c : Dev nD) (t : Fin cfg0.N) : (iblk m c 3 t : Vec Ideal S128x256 .bf16) = w1b m c := by
  obtain ⟨e00, e01, e10, e11, e20, e21, e30, e31, e40, e41, e50, e51, e60, e61, e70, e71⟩ := idx_facts t
  funext y
  show V m c main_v27 (((cfg0.win 3).blk t).view.emb y) = V m c main_v27 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- Window 4's block at any point is its array whole (its block index never moves). -/
theorem blk4_whole (c : Dev nD) (t : Fin cfg0.N) : (iblk m c 4 t : Vec Ideal S1x256 .f32) = b1r m c := by
  obtain ⟨e00, e01, e10, e11, e20, e21, e30, e31, e40, e41, e50, e51, e60, e61, e70, e71⟩ := idx_facts t
  funext y
  show V m c main_v28 (((cfg0.win 4).blk t).view.emb y) = V m c main_v28 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block at any point is its array whole (its block index never moves). -/
theorem blk5_whole (c : Dev nD) (t : Fin cfg0.N) : (iblk m c 5 t : Vec Ideal S1x256 .bf16) = w2r m c := by
  obtain ⟨e00, e01, e10, e11, e20, e21, e30, e31, e40, e41, e50, e51, e60, e61, e70, e71⟩ := idx_facts t
  funext y
  show V m c main_v29 (((cfg0.win 5).blk t).view.emb y) = V m c main_v29 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6's block at any point is its array whole (its block index never moves). -/
theorem blk6_whole (c : Dev nD) (t : Fin cfg0.N) : (iblk m c 6 t : Vec Ideal S1x1 .f32) = b2r m c := by
  obtain ⟨e00, e01, e10, e11, e20, e21, e30, e31, e40, e41, e50, e51, e60, e61, e70, e71⟩ := idx_facts t
  funext y
  show V m c main_v30 (((cfg0.win 6).blk t).view.emb y) = V m c main_v30 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Tile row r of window 0's block at point t is array row 4096·t + r: the row the score row's block has at column r. -/
theorem blk0_row (c : Dev nD) (t : Fin cfg0.N) (y : S1x4096.Idx) (k : Fin 128) :
    (iblk m c 0 t : Vec Ideal S4096x128 .bf16) (ix2 (y 1) k) = featD m c (ix2 ((((cfg0.win 7).blk t).view.emb y) 1) k) := by
  obtain ⟨e00, e01, e10, e11, e20, e21, e30, e31, e40, e41, e50, e51, e60, e61, e70, e71⟩ := idx_facts t
  show V m c main_v16 (((cfg0.win 0).blk t).view.emb (ix2 (y 1) k)) = V m c main_v16 (ix2 ((((cfg0.win 7).blk t).view.emb y) 1) k)
  refine congrArg _ (funext fun a => Fin.ext ?_)
  match a with
  | ⟨0, _⟩ => show win0_0.index t (0 : Fin 2) * 4096 + 1 * (y 1).val = win0_7.index t (1 : Fin 2) * 4096 + 1 * (y 1).val; omega
  | ⟨1, _⟩ => show win0_0.index t (1 : Fin 2) * 128 + 1 * k.val = k.val; omega

/-- Tile row r of window 1's block at point t is array row 4096·t + r: the row the score row's block has at column r. -/
theorem blk1_row (c : Dev nD) (t : Fin cfg0.N) (y : S1x4096.Idx) (k : Fin 128) :
    (iblk m c 1 t : Vec Ideal S4096x128 .bf16) (ix2 (y 1) k) = featG m c (ix2 ((((cfg0.win 7).blk t).view.emb y) 1) k) := by
  obtain ⟨e00, e01, e10, e11, e20, e21, e30, e31, e40, e41, e50, e51, e60, e61, e70, e71⟩ := idx_facts t
  show V m c main_v23 (((cfg0.win 1).blk t).view.emb (ix2 (y 1) k)) = V m c main_v23 (ix2 ((((cfg0.win 7).blk t).view.emb y) 1) k)
  refine congrArg _ (funext fun a => Fin.ext ?_)
  match a with
  | ⟨0, _⟩ => show win0_1.index t (0 : Fin 2) * 4096 + 1 * (y 1).val = win0_7.index t (1 : Fin 2) * 4096 + 1 * (y 1).val; omega
  | ⟨1, _⟩ => show win0_1.index t (1 : Fin 2) * 128 + 1 * k.val = k.val; omega

/-- The payload of point t at tile column y is the row function at the array column the block puts y at. -/
theorem point_score (c : Dev nD) (t : Fin cfg0.N) (y : S1x4096.Idx) :
    k0_pay1 (F := Ideal) (iblk m c 0 t) (iblk m c 1 t) (iblk m c 2 t) (iblk m c 3 t) (iblk m c 4 t) (iblk m c 5 t) (iblk m c 6 t) y
      = scoreRow (featD m c) (featG m c) (w1a m c) (w1b m c) (b1r m c) (w2r m c) (b2r m c) (((cfg0.win 7).blk t).view.emb y) := by
  rw [blk2_whole m c t, blk3_whole m c t, blk4_whole m c t, blk5_whole m c t, blk6_whole m c t]
  exact tile_score (iblk m c 0 t) (iblk m c 1 t) (w1a m c) (w1b m c) (b1r m c) (w2r m c) (b2r m c) (featD m c) (featG m c)
    (((cfg0.win 7).blk t).view.emb y) y (fun k => blk0_row m c t y k) (fun k => blk1_row m c t y k)

/-- WHAT POINT t WRITES BACK is block t of the row function of the arrays as the region finds them. -/
theorem flushed_eq (c : Dev nD) (t : Fin cfg0.N) :
    (dats m 0 c).flushed 7 t = ((cfg0.win 7).blk t).view.read (Elt Ideal)
      (scoreRow (featD m c) (featG m c) (w1a m c) (w1b m c) (b1r m c) (w2r m c) (b2r m c)) := by
  show (cfg0.win 7).cut (grid0.coords t) ((dats m 0 c).after 7 t) = _
  rw [after0_7]
  unfold out0_7
  rw [View.canon_unit_zero hz]
  simp only [View.ld_unit_zero (S := S4096x128) hz, View.ld_unit_zero (S := S128x256) hz,
    View.ld_unit_zero (S := S1x256) hz, View.ld_unit_zero (S := S1x1) hz]
  funext y
  exact point_score m c t y

/-! ## The cover, and the array after the run -/

/-- An index of the row is in point t's block iff each coordinate is in the block's range on its axis. -/
theorem mem_blk (t : Fin cfg0.N) (i : S1x1003520.Idx) :
    i ∈ ((cfg0.win 7).blk t).view.set ↔ ∀ a : Fin 2, win0_7.index t a * S1x4096.size a ≤ (i a).val ∧ (i a).val < win0_7.index t a * S1x4096.size a + S1x4096.size a := by
  show i ∈ ((View.whole main_v31).slice (win0_7.rect t)).set ↔ _
  rw [View.set_slice_whole, Rect.mem_set_unit]
  exact Iff.rfl

/-- Column e is written back by point e / 4096. -/
theorem cover (i : S1x1003520.Idx) :
    ∃ t : Fin cfg0.N, (cfg0.win 7).flush t = true ∧ i ∈ ((cfg0.win 7).blk t).view.set := by
  have hi0 : (i 0).val < 1 := (i 0).isLt
  have hi1 : (i 1).val < 1003520 := (i 1).isLt
  have hN : (i 1).val / 4096 < grid0.N := by rw [N_0]; omega
  obtain ⟨t, ht⟩ : ∃ t : Fin cfg0.N, t.val = (i 1).val / 4096 := ⟨⟨(i 1).val / 4096, hN⟩, rfl⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 4096 ≤ (i 1).val ∧ (i 1).val < win0_7.index t (1 : Fin 2) * 4096 + 4096; omega

/-- THE ARRAY AFTER THE RUN is the row function of the arrays as the region finds them. -/
theorem final (c : Dev nD) : (dats m 0 c).arrAt 7 cfg0.N
    = scoreRow (featD m c) (featG m c) (w1a m c) (w1b m c) (b1r m c) (w2r m c) (b2r m c) :=
  (dats m 0 c).arrAt_eq_of_cover 7 _ (fun t _ => flushed_eq m c t) cover

end Cert.KernelIdeal.Blocks

end
-- ==== Proof.KernelRun.lean ====
/-
  THE KERNEL PROGRAM'S RESULT. After the region, @main turns the 1 × 1003520 row of scores into a column and keeps
  its first 1000000 entries (the padded tail is cut off): entry (e, 0) of the result is column e of the row. The
  frame run gives the row as the region's eighth array after the last write-back, which is the row function of the
  seven arrays the region found (KernelBlocks' `final`), and the two operations after the region are read off it.
-/
import proofs.«430565_j47974784696844_3_alg».proof.Proof.KernelBlocks
import Idealize.ShloMosaic.Lib.StableHlo.Run

set_option maxRecDepth 16384

noncomputable section

namespace Cert.KernelIdeal.Run

open Cert.KernelIdeal Cert.KernelIdeal.Gen Cert.KernelIdeal.Blocks Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The two operations after the region: the row as a column, cut to the first 1000000 entries. -/
def columnOf (X : Vec Ideal S1x1003520 .f32) : Vec Ideal S1000000x1 .f32 :=
  extractStridedSlice S1000000x1 ![0, 0] (transpose S1003520x1 [1, 0] X transposes_S1x1003520_S1003520x1_1_0) slices_S1003520x1_S1000000x1_0_0

/-- Entry (e, 0) of the column is column e of the row. -/
theorem columnOf_apply (X : Vec Ideal S1x1003520 .f32) (e : Fin 1000000) :
    columnOf X (ix2 e (0 : Fin 1)) = X (ix2 (0 : Fin 1) (⟨e.val, by omega⟩ : Fin 1003520)) := by
  unfold columnOf
  rw [extractStridedSlice_apply ![0, 0] _ slices_S1003520x1_S1000000x1_0_0 (ix2 e (0 : Fin 1))
    (ix2 (⟨e.val, by omega⟩ : Fin 1003520) (0 : Fin 1)) (fun a => by
      match a with
      | ⟨0, _⟩ => show e.val = 0 + e.val; omega
      | ⟨1, _⟩ => show (0 : Nat) = 0 + 0; rfl)]
  exact transpose_apply [1, 0] X transposes_S1x1003520_S1003520x1_1_0 (ix2 (⟨e.val, by omega⟩ : Fin 1003520) (0 : Fin 1))
    (ix2 (0 : Fin 1) (⟨e.val, by omega⟩ : Fin 1003520)) (fun b => by
      match b with
      | ⟨0, _⟩ => rfl
      | ⟨1, _⟩ => rfl)

/-- What the lines after the region leave in @main's result: the column of the row function. -/
theorem result_eq (c : Dev nD) :
    Pipeline.afterTail₀ cfgs (dats m) 0 (V0 m) [hostOps1] c main_v33
      = columnOf (scoreRow (featD m c) (featG m c) (w1a m c) (w1b m c) (b1r m c) (w2r m c) (b2r m c)) := by
  unfold Pipeline.afterTail₀
  show StableHlo.after hostOps1 _ (Proc.devRef .tc main_v33) = _
  after_results
  unfold columnOf
  rw [← final m c]
  exact congrArg (fun X => extractStridedSlice S1000000x1 ![0, 0] (transpose S1003520x1 [1, 0] X transposes_S1x1003520_S1003520x1_1_0) slices_S1003520x1_S1000000x1_0_0)
    (Pipeline.withArrays_arr spec0 launch0.win.arr_inj c _ _ 7)

/-- THE RUN: every weakly fair execution of the kernel program terminates with the result at the column of the row
    function of the arrays the region found, and the arguments unchanged. -/
theorem run : θ_run defs (onTc (τ := τ) (main (F := Ideal))) ⟨m, fun _ => 0, ρ⟩ fun r => ∀ c : Dev nD,
      r.2.mem ((c.tc : Thread nD τ).loc main_v33) = columnOf (scoreRow (featD m c) (featG m c) (w1a m c) (w1b m c) (b1r m c) (w2r m c) (b2r m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v33 (Pipeline.mem_restRefs_of main_v33 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Run

end
-- ==== Proof.LibRowGather.lean ====
/-
  A ROW GATHER READ AT AN INDEX. jnp's `table[idx]` over a table of N rows and C columns prints as a
  `stablehlo.gather` whose start indices are the [n × 1] column of row numbers: operand axis 0 is collapsed and
  start-indexed, operand axis 1 is the result's one offset axis with the whole row as its slice, there are no
  batching axes, and the index vector lies on axis 1. Result entry (p, q) is then the table's entry (r, q), where
  r is position p's row number READ SIGNED AND CLAMPED into [0, N − 1]: a negative number reads row 0, one past the
  end reads the last row.
-/
import Idealize.ShloMosaic.PureOps
import Idealize.ShloMosaic.Lib.ValueIdx

namespace Idealize.ShloMosaic.RowGather

open Idealize.ShloMosaic Idealize.ShloMosaic.ValueIdx

/-- The row a start index names: the word read as a signed integer, clamped into the table. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- The gather of whole rows, at result entry (p, q): the table's entry (clamped row number of p, q). The five
    hypotheses are the printed dimension numbers, each by `rfl` on a program's record. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (clampRow N hN (idx (ix2 p (0 : Fin 1)))) q) := by
  unfold Host.gather
  congr 1
  funext a
  apply Fin.ext
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := d.slice_collapsed 0 (by rw [hcoll]; exact List.mem_singleton.mpr rfl)
  match a with
  | ⟨0, _⟩ =>
    show d.start (ix2 p q) idx 0 + d.batchCoord (ix2 p q) 0 + d.offCoord (ix2 p q) 0 = min _ (N - 1)
    rw [GatherDims.batchCoord_eq_zero _ _ _ (hb 0), GatherDims.offCoord_eq_zero _ _ _ hk0]
    simp only [Nat.add_zero]
    unfold GatherDims.start
    rw [dif_pos hm0]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      -- the result's one batch axis is axis 0
      have e : ∀ a ∈ d.batchDims, a = (0 : Fin 2) := fun a ha => by
        have h1 : a ∉ d.offsetDims := by
          have h2 := (List.mem_filter.mp ha).2
          simpa using h2
        rw [hoff, List.mem_singleton] at h1
        match a, h1 with
        | ⟨0, _⟩, _ => rfl
        | ⟨1, _⟩, h1 => exact absurd rfl h1
      rw [e _ (List.getElem_mem _)]
    | ⟨1, _⟩ =>
      unfold GatherDims.siIdx
      rw [dif_pos (by rw [hivd])]
      apply Fin.ext
      show List.idxOf (0 : Fin 2) d.startIndexMap = 0
      rw [hsim]; simp
  | ⟨1, _⟩ =>
    show d.start (ix2 p q) idx 1 + d.batchCoord (ix2 p q) 1 + d.offCoord (ix2 p q) 1 = q.val
    rw [GatherDims.batchCoord_eq_zero _ _ _ (hb 1)]
    unfold GatherDims.start
    rw [dif_neg hm1]
    unfold GatherDims.offCoord
    rw [dif_pos hk1]
    simp only [Nat.zero_add, Nat.add_zero]
    -- the result's one offset axis is axis 1
    have e : ∀ a ∈ d.offsetDims, a = (1 : Fin 2) := fun a ha => by
      rw [hoff] at ha
      exact List.mem_singleton.mp ha
    rw [e _ (List.getElem_mem _)]

end Idealize.ShloMosaic.RowGather
-- ==== Proof.NodeRow.lean ====
/-
  WHICH ROW A NODE NUMBER NAMES. Both programs finally hand a 32-bit word to a row gather of a 20000-row table, which
  reads it signed and clamps it into [0, 19999]. The reference first adds 20000 to a negative word (Python's
  wrap-around); the kernel first clips the word into [0, 19999] and then does the same wrap-around. For a word v that
  is not negative the wrap-around does nothing on either side, and clipping to 19999 before the gather's own clamp
  changes nothing: both name row min(v, 19999).
-/
import proofs.«430565_j47974784696844_3_alg».proof.Proof.LibRowGather

namespace Cert.NodeRow

open Idealize.ShloMosaic Idealize.ShloMosaic.RowGather

theorem slt_zero_of_nonneg (v : BitVec 32) (hv : 0 ≤ v.toInt) : IntOp.cmpi .slt v 0#32 = 0#1 := by
  have h : v.slt 0#32 = false := by simp [BitVec.slt]; omega
  simp [IntOp.cmpi, h]

/-- The reference's wrap-around of a word that is not negative is the word. -/
theorem wrap_of_nonneg (v : BitVec 32) (hv : 0 ≤ v.toInt) :
    Scalar.select (IntOp.cmpi .slt v 0#32) (IntOp.addi v 20000#32) v = v := by
  rw [slt_zero_of_nonneg v hv]
  exact if_neg (by decide)

/-- The kernel's clip of a word into [0, 19999]. -/
def clip (v : BitVec 32) : BitVec 32 := IntOp.minsi 19999#32 (IntOp.maxsi 0#32 v)

theorem clip_cases (v : BitVec 32) (hv : 0 ≤ v.toInt) :
    (19999 < v.toInt ∧ clip v = 19999#32) ∨ (v.toInt ≤ 19999 ∧ clip v = v) := by
  have h0 : IntOp.maxsi 0#32 v = v := by
    have h : v.slt 0#32 = false := by simp [BitVec.slt]; omega
    simp [IntOp.maxsi, h]
  unfold clip
  rw [h0]
  by_cases h : 19999 < v.toInt
  · left
    refine ⟨h, ?_⟩
    have hs : (19999#32 : BitVec 32).slt v = true := by simp [BitVec.slt]; omega
    simp [IntOp.minsi, hs]
  · right
    refine ⟨by omega, ?_⟩
    have hs : (19999#32 : BitVec 32).slt v = false := by simp [BitVec.slt]; omega
    simp [IntOp.minsi, hs]

/-- The kernel's clip-then-wrap of a word that is not negative names the row the word itself names. -/
theorem kernel_row (v : BitVec 32) (hv : 0 ≤ v.toInt) :
    clampRow 20000 (by decide) (Scalar.select (IntOp.cmpi .slt (clip v) 0#32) (IntOp.addi (clip v) 20000#32) (clip v))
      = clampRow 20000 (by decide) v := by
  rcases clip_cases v hv with ⟨h, e⟩ | ⟨h, e⟩
  · rw [e, wrap_of_nonneg _ (by decide)]
    apply Fin.ext
    rw [clampRow_val, clampRow_val]
    have : (19999#32 : BitVec 32).toInt = 19999 := by decide
    rw [this]
    omega
  · rw [e, wrap_of_nonneg _ hv]

end Cert.NodeRow
-- ==== Proof.KernelGather.lean ====
/-
  THE KERNEL PROGRAM'S GATHER, READ AT AN EDGE. Before the region @main prepares each side's feature rows the same
  way: it cuts that side's row of 1000000 node numbers out of the 2 × 1000000 table, clips every number into
  [0, 19999], pads the vector with 3520 zeros to 245 tiles of 4096, applies Python's wrap-around (add 20000 to a
  negative number: nothing to do after the clip), and gathers the rows of the feature table narrowed to bf16 (the
  identity on the extended reals). For an edge e < 1000000 the padding is not met, and for a node number that is not
  negative the row gathered is the row the number itself names after the gather's clamp (NodeRow's `kernel_row`).
-/
import proofs.«430565_j47974784696844_3_alg».proof.Proof.Gen.KernelIdeal
import proofs.«430565_j47974784696844_3_alg».proof.Proof.NodeRow
import Idealize.ShloMosaic.Lib.ValueIdx
import Idealize.ShloMosaic.Lib.Pipeline.Value
import Idealize.ShloMosaic.Lib.KernelVsHost
import Idealize.ShloMosaic.PureOps.Ideal

noncomputable section

namespace Cert.KernelIdeal.Gather

open Cert.KernelIdeal Cert.KernelIdeal.Gen Idealize.ShloMosaic Idealize.ShloMosaic.ValueIdx
open Idealize.ShloMosaic.RowGather Cert.NodeRow

/-! ## A side's node numbers out of the table -/

/-- The disease side: entry e of the vector is the table's entry (0, e). -/
theorem numbers0_apply (x2 : IVec S2x1000000 32) (e : Fin 1000000) :
    shapeCast S1000000 (extractStridedSlice S1x1000000 ![0, 0] x2 slices_S2x1000000_S1x1000000_0_0) shapeCasts_S1x1000000_S1000000 (ix1 e)
      = x2 (ix2 (0 : Fin 2) e) := by
  rw [shapeCast_apply _ shapeCasts_S1x1000000_S1000000 (ix1 e) (ix2 (0 : Fin 1) e)
    (by rewrite [Shape.rowMajor_val_two, Shape.rowMajor_val_one]; show 0 * 1000000 + e.val = e.val; omega)]
  exact extractStridedSlice_apply ![0, 0] x2 slices_S2x1000000_S1x1000000_0_0 (ix2 (0 : Fin 1) e) (ix2 (0 : Fin 2) e) (fun a => by
    match a with
    | ⟨0, _⟩ => show (0 : Nat) = 0 + 0; rfl
    | ⟨1, _⟩ => show e.val = 0 + e.val; omega)

/-- The drug side: entry e of the vector is the table's entry (1, e). -/
theorem numbers1_apply (x2 : IVec S2x1000000 32) (e : Fin 1000000) :
    shapeCast S1000000 (extractStridedSlice S1x1000000 ![1, 0] x2 slices_S2x1000000_S1x1000000_1_0) shapeCasts_S1x1000000_S1000000 (ix1 e)
      = x2 (ix2 (1 : Fin 2) e) := by
  rw [shapeCast_apply _ shapeCasts_S1x1000000_S1000000 (ix1 e) (ix2 (0 : Fin 1) e)
    (by rewrite [Shape.rowMajor_val_two, Shape.rowMajor_val_one]; show 0 * 1000000 + e.val = e.val; omega)]
  exact extractStridedSlice_apply ![1, 0] x2 slices_S2x1000000_S1x1000000_1_0 (ix2 (0 : Fin 1) e) (ix2 (1 : Fin 2) e) (fun a => by
    match a with
    | ⟨0, _⟩ => show (1 : Nat) = 1 + 0; rfl
    | ⟨1, _⟩ => show e.val = 0 + e.val; omega)

/-! ## Clip, pad, wrap around -/

/-- The numbers clipped into [0, 19999]. -/
def clipped (num : IVec S1000000 32) : IVec S1000000 32 :=
  minsi (broadcastInDim S1000000 ![] bcast_S_S1000000 (constantI S_ 32 19999#32))
    (maxsi (broadcastInDim S1000000 ![] bcast_S_S1000000 (constantI S_ 32 0#32)) num)

/-- The clipped numbers padded with 3520 zeros. -/
def padded (num : IVec S1000000 32) : IVec S1003520 32 :=
  pad S1003520 ![0] ![3520] ![0] (clipped num) (constantI S_ 32 0#32) pads_S1000000_S1003520_035200 h_S_

/-- Python's wrap-around of the padded numbers: what the gather is handed. -/
def rowNumbers (num : IVec S1000000 32) : IVec S1003520 32 :=
  select (cmpi .slt (padded num) (broadcastInDim S1003520 ![] bcast_S_S1003520 (constantI S_ 32 0#32)))
    (addi (padded num) (broadcastInDim S1003520 ![] bcast_S_S1003520 (constantI S_ 32 20000#32))) (padded num)

theorem clipped_apply (num : IVec S1000000 32) (e : Fin 1000000) : clipped num (ix1 e) = clip (num (ix1 e)) := rfl

/-- Below 1000000 the padding is not met. -/
theorem padded_apply (num : IVec S1000000 32) (e : Fin 1000000) :
    padded num (ix1 (⟨e.val, by omega⟩ : Fin 1003520)) = clip (num (ix1 e)) := by
  unfold padded
  rw [pad_apply_of_inside ![0] ![3520] ![0] (clipped num) (constantI S_ 32 0#32) pads_S1000000_S1003520_035200 h_S_
    (ix1 (⟨e.val, by omega⟩ : Fin 1003520)) (ix1 e) (fun a => by
      match a with
      | ⟨0, _⟩ => show e.val = 0 + e.val * (0 + 1); omega)]
  rfl

theorem rowNumbers_apply (num : IVec S1000000 32) (e : Fin 1000000) :
    rowNumbers num (ix1 (⟨e.val, by omega⟩ : Fin 1003520))
      = Scalar.select (IntOp.cmpi .slt (clip (num (ix1 e))) 0#32) (IntOp.addi (clip (num (ix1 e))) 20000#32) (clip (num (ix1 e))) := by
  show Scalar.select (IntOp.cmpi .slt (padded num (ix1 (⟨e.val, by omega⟩ : Fin 1003520))) 0#32)
    (IntOp.addi (padded num (ix1 (⟨e.val, by omega⟩ : Fin 1003520))) 20000#32) (padded num (ix1 (⟨e.val, by omega⟩ : Fin 1003520))) = _
  rw [padded_apply]

/-! ## The gathered rows -/

/-- A side's gathered feature rows, one per padded edge, from its feature table and its node numbers. -/
def gatheredOf (tbl : FVec Ideal S20000x128 .f32) (num : IVec S1000000 32) : FVec Ideal S1003520x128 .bf16 :=
  Host.gather gather_S20000x128_S1003520x1_S1003520x128_1_0_n_n_0_1_1128 (truncf .bf16 tbl bitsLt_bf16_f32)
    (broadcastInDim S1003520x1 ![0] bcast_S1003520_S1003520x1_0 (rowNumbers num))

/-- Edge e's gathered row, for a node number that is not negative: the table's row the number names. -/
theorem gatheredOf_apply (tbl : FVec Ideal S20000x128 .f32) (num : IVec S1000000 32) (e : Fin 1000000) (k : Fin 128)
    (h : 0 ≤ (num (ix1 e)).toInt) :
    gatheredOf tbl num (ix2 (⟨e.val, by omega⟩ : Fin 1003520) k) = tbl (ix2 (clampRow 20000 (by decide) (num (ix1 e))) k) := by
  unfold gatheredOf
  rw [gather_rows_apply _ rfl rfl rfl rfl rfl _ _ (⟨e.val, by omega⟩ : Fin 1003520) k (by decide), truncf_apply]
  have hb : broadcastInDim S1003520x1 ![0] bcast_S1003520_S1003520x1_0 (rowNumbers num) (ix2 (⟨e.val, by omega⟩ : Fin 1003520) (0 : Fin 1))
      = rowNumbers num (ix1 (⟨e.val, by omega⟩ : Fin 1003520)) :=
    broadcastInDim_apply _ bcast_S1003520_S1003520x1_0 (rowNumbers num) (ix2 (⟨e.val, by omega⟩ : Fin 1003520) (0 : Fin 1))
      (ix1 (⟨e.val, by omega⟩ : Fin 1003520)) (fun a => by
        match a with
        | ⟨0, _⟩ => show e.val = if (1003520 : Nat) = 1 then 0 else e.val; rw [if_neg (by decide)])
  rw [hb, rowNumbers_apply, kernel_row _ h]

end Cert.KernelIdeal.Gather

end
-- ==== Proof.EdgeScore.lean ====
/-
  THE LINK SCORE OF ONE EDGE, as both programs compute it on the extended reals. An edge joins disease node r0 and
  drug node r1; its feature row is the 128 disease features followed by the 128 drug features, and its score is

      score = Σ_j W2[0, j] · max(Σ_{k<256} feat[k] · W1[j, k] + b1[j], 0) + b2[0].

  The kernel keeps the two halves apart — the inner sum is the sum over the disease features against columns
  0..127 of W1 plus the sum over the drug features against columns 128..255 — and multiplies the hidden unit by
  W2 from the left; the reference takes one sum over the concatenated row and multiplies from the right. A sum over
  256 terms is the sum of its two halves, and a product commutes: both hold on the extended reals as they stand, so
  no finiteness is needed.
-/
import Idealize.ShloMosaic.PureOps.Ideal
import Idealize.ShloMosaic.Lib.ValueIdx

noncomputable section

namespace Cert.EdgeScore

open Idealize.ShloMosaic Idealize.ShloMosaic.ValueIdx

/-- Column k of the disease half of a 256-wide row. -/
def lo (k : Fin 128) : Fin 256 := ⟨k.val, by omega⟩
/-- Column k of the drug half: 128 further on. -/
def hi (k : Fin 128) : Fin 256 := ⟨128 + k.val, by omega⟩

theorem lo_val (k : Fin 128) : (lo k).val = k.val := rfl
theorem hi_val (k : Fin 128) : (hi k).val = 128 + k.val := rfl

/-- A sum over 256 terms is the sum over the first 128 plus the sum over the last 128. -/
theorem sum_halves {M : Type} [AddCommMonoid M] (g : Fin 256 → M) :
    ∑ k : Fin 256, g k = ∑ k : Fin 128, g (lo k) + ∑ k : Fin 128, g (hi k) :=
  Fin.sum_univ_add (a := 128) (b := 128) g

/-- The score of an edge between disease row `r0` and drug row `r1`, in the kernel's arrangement. -/
def score (xd xg : (⟨2, ![20000, 128]⟩ : Shape).Idx → EReal) (W1 : (⟨2, ![256, 256]⟩ : Shape).Idx → EReal)
    (b1 : (⟨1, ![256]⟩ : Shape).Idx → EReal) (W2 : (⟨2, ![1, 256]⟩ : Shape).Idx → EReal)
    (b2 : (⟨1, ![1]⟩ : Shape).Idx → EReal) (r0 r1 : Fin 20000) : EReal :=
  (∑ j : Fin 256, W2 (ix2 0 j) * max ((∑ k : Fin 128, xd (ix2 r0 k) * W1 (ix2 j (lo k))
      + ∑ k : Fin 128, xg (ix2 r1 k) * W1 (ix2 j (hi k))) + b1 (ix1 j)) 0) + b2 (ix1 0)

/-- The reference's arrangement is the same number: one sum over the concatenated feature row `feat`, the hidden
    unit multiplied by W2 from the right. -/
theorem score_of_concat (xd xg : (⟨2, ![20000, 128]⟩ : Shape).Idx → EReal) (W1 : (⟨2, ![256, 256]⟩ : Shape).Idx → EReal)
    (b1 : (⟨1, ![256]⟩ : Shape).Idx → EReal) (W2 : (⟨2, ![1, 256]⟩ : Shape).Idx → EReal)
    (b2 : (⟨1, ![1]⟩ : Shape).Idx → EReal) (r0 r1 : Fin 20000) (feat : Fin 256 → EReal)
    (h0 : ∀ k : Fin 128, feat (lo k) = xd (ix2 r0 k)) (h1 : ∀ k : Fin 128, feat (hi k) = xg (ix2 r1 k)) :
    (∑ j : Fin 256, max ((∑ k : Fin 256, feat k * W1 (ix2 j k)) + b1 (ix1 j)) 0 * W2 (ix2 0 j)) + b2 (ix1 0)
      = score xd xg W1 b1 W2 b2 r0 r1 := by
  unfold score
  congr 1
  refine Finset.sum_congr rfl fun j _ => ?_
  rw [mul_comm, sum_halves]
  simp only [h0, h1]

end Cert.EdgeScore

end
-- ==== Proof.KernelOperands.lean ====
/-
  THE REGION'S SMALL OPERANDS, READ AT AN INDEX. Before the region @main transposes W1 and cuts the transpose into its
  upper and lower 128 rows, lays b1 out as a 1 × 256 row and b2 as a 1 × 1 array, and narrows W1ᵀ and W2 to bf16 (the
  identity on the extended reals). So entry (k, j) of the upper half is W1[j, k], of the lower half W1[j, 128 + k];
  entry (0, j) of the bias row is b1[j]; the one entry of the 1 × 1 array is b2[0].
-/
import proofs.«430565_j47974784696844_3_alg».proof.Proof.Gen.KernelIdeal
import proofs.«430565_j47974784696844_3_alg».proof.Proof.EdgeScore
import Idealize.ShloMosaic.Lib.ValueIdx
import Idealize.ShloMosaic.Lib.Pipeline.Value
import Idealize.ShloMosaic.PureOps.Ideal

noncomputable section

namespace Cert.KernelIdeal.Operands

open Cert.KernelIdeal Cert.KernelIdeal.Gen Idealize.ShloMosaic Idealize.ShloMosaic.ValueIdx Cert.EdgeScore

/-- Rows 0..127 of the transposed weights: entry (k, j) is W1[j, k]. -/
theorem upper_apply (W : FVec Ideal S256x256 .f32) (k : Fin 128) (j : Fin 256) :
    extractStridedSlice S128x256 ![0, 0] (truncf .bf16 (transpose S256x256 [1, 0] W transposes_S256x256_S256x256_1_0) bitsLt_bf16_f32)
      slices_S256x256_S128x256_0_0 (ix2 k j) = W (ix2 j (lo k)) := by
  rw [extractStridedSlice_apply ![0, 0] _ slices_S256x256_S128x256_0_0 (ix2 k j) (ix2 (lo k) j) (fun a => by
    match a with
    | ⟨0, _⟩ => show k.val = 0 + k.val; omega
    | ⟨1, _⟩ => show j.val = 0 + j.val; omega)]
  rw [truncf_apply]
  exact transpose_apply [1, 0] W transposes_S256x256_S256x256_1_0 (ix2 (lo k) j) (ix2 j (lo k)) (fun b => by
    match b with
    | ⟨0, _⟩ => rfl
    | ⟨1, _⟩ => rfl)

/-- Rows 128..255 of the transposed weights: entry (k, j) is W1[j, 128 + k]. -/
theorem lower_apply (W : FVec Ideal S256x256 .f32) (k : Fin 128) (j : Fin 256) :
    extractStridedSlice S128x256 ![128, 0] (truncf .bf16 (transpose S256x256 [1, 0] W transposes_S256x256_S256x256_1_0) bitsLt_bf16_f32)
      slices_S256x256_S128x256_128_0 (ix2 k j) = W (ix2 j (hi k)) := by
  rw [extractStridedSlice_apply ![128, 0] _ slices_S256x256_S128x256_128_0 (ix2 k j) (ix2 (hi k) j) (fun a => by
    match a with
    | ⟨0, _⟩ => show 128 + k.val = 128 + k.val; rfl
    | ⟨1, _⟩ => show j.val = 0 + j.val; omega)]
  rw [truncf_apply]
  exact transpose_apply [1, 0] W transposes_S256x256_S256x256_1_0 (ix2 (hi k) j) (ix2 j (hi k)) (fun b => by
    match b with
    | ⟨0, _⟩ => rfl
    | ⟨1, _⟩ => rfl)

/-- The first-layer bias laid out as a row: entry (0, j) is b1[j]. -/
theorem biasRow_apply (b : FVec Ideal S256 .f32) (j : Fin 256) :
    shapeCast S1x256 b shapeCasts_S256_S1x256 (ix2 (0 : Fin 1) j) = b (ix1 j) :=
  shapeCast_apply b shapeCasts_S256_S1x256 (ix2 (0 : Fin 1) j) (ix1 j)
    (by rewrite [Shape.rowMajor_val_one, Shape.rowMajor_val_two]; show j.val = 0 * 256 + j.val; omega)

/-- The second-layer bias laid out as a 1 × 1 array: its entry is b2[0]. -/
theorem biasOne_apply (b : FVec Ideal S1 .f32) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1))
    (by rewrite [Shape.rowMajor_val_one, Shape.rowMajor_val_two]; show (0 : Nat) = 0 * 1 + 0; rfl)

end Cert.KernelIdeal.Operands

end
-- ==== Proof.KernelHost.lean ====
/-
  THE SEVEN ARRAYS THE REGION FINDS, IN TERMS OF THE ARGUMENTS, and with them the score row at an edge. Each array is
  what the operations of @main before the region make of the arguments: the two gathered feature arrays (KernelGather),
  the two halves of the transposed first-layer weights, the two biases laid out as arrays and the second-layer weights
  (KernelOperands). Read at an edge e < 1000000 whose two node numbers are not negative, column e of the score row
  is the edge's score (EdgeScore) of the rows the two numbers name.
-/
import proofs.«430565_j47974784696844_3_alg».proof.Proof.KernelBlocks
import proofs.«430565_j47974784696844_3_alg».proof.Proof.KernelGather
import proofs.«430565_j47974784696844_3_alg».proof.Proof.KernelOperands
import Idealize.ShloMosaic.Lib.StableHlo.Run

set_option maxRecDepth 16384

noncomputable section

namespace Cert.KernelIdeal.Host

open Cert.KernelIdeal Cert.KernelIdeal.Gen Cert.KernelIdeal.Blocks Cert.KernelIdeal.Gather Cert.KernelIdeal.Operands
open Idealize.ShloMosaic Idealize.ShloMosaic.TcCoe Idealize.SL.Sem Idealize.ShloMosaic.StableHlo
open Idealize.ShloMosaic.ValueIdx Idealize.ShloMosaic.RowGather Cert.EdgeScore

variable (m : (ℓ : Loc nD τ sig) → Buf (Elt Ideal) ℓ)

/-! ## The arguments at their literal types -/

abbrev xd (c : Dev nD) : FVec Ideal S20000x128 .f32 := m ((c.tc : Thread nD τ).loc main_arg0)
abbrev xg (c : Dev nD) : FVec Ideal S20000x128 .f32 := m ((c.tc : Thread nD τ).loc main_arg1)
abbrev eli (c : Dev nD) : IVec S2x1000000 32 := m ((c.tc : Thread nD τ).loc main_arg2)
abbrev W1 (c : Dev nD) : FVec Ideal S256x256 .f32 := m ((c.tc : Thread nD τ).loc main_arg3)
abbrev b1 (c : Dev nD) : FVec Ideal S256 .f32 := m ((c.tc : Thread nD τ).loc main_arg4)
abbrev W2 (c : Dev nD) : FVec Ideal S1x256 .f32 := m ((c.tc : Thread nD τ).loc main_arg5)
abbrev b2 (c : Dev nD) : FVec Ideal S1 .f32 := m ((c.tc : Thread nD τ).loc main_arg6)

/-- A side's node numbers as a vector. -/
abbrev num0 (c : Dev nD) : IVec S1000000 32 :=
  shapeCast S1000000 (extractStridedSlice S1x1000000 ![0, 0] (eli m c) slices_S2x1000000_S1x1000000_0_0) shapeCasts_S1x1000000_S1000000
abbrev num1 (c : Dev nD) : IVec S1000000 32 :=
  shapeCast S1000000 (extractStridedSlice S1x1000000 ![1, 0] (eli m c) slices_S2x1000000_S1x1000000_1_0) shapeCasts_S1x1000000_S1000000

/-! ## Each array as the operations before the region leave it -/

set_option maxHeartbeats 4000000 in
theorem featD_eq (c : Dev nD) : featD m c = gatheredOf (xd m c) (num0 m c) := by
  show (V m c main_v16 : Vec Ideal S1003520x128 .bf16) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 4000000 in
theorem featG_eq (c : Dev nD) : featG m c = gatheredOf (xg m c) (num1 m c) := by
  show (V m c main_v23 : Vec Ideal S1003520x128 .bf16) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem w1a_eq (c : Dev nD) : w1a m c = extractStridedSlice S128x256 ![0, 0] (truncf .bf16 (transpose S256x256 [1, 0] (W1 m c) transposes_S256x256_S256x256_1_0) bitsLt_bf16_f32) slices_S256x256_S128x256_0_0 := by
  show (V m c main_v26 : Vec Ideal S128x256 .bf16) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results

theorem w1b_eq (c : Dev nD) : w1b m c = extractStridedSlice S128x256 ![128, 0] (truncf .bf16 (transpose S256x256 [1, 0] (W1 m c) transposes_S256x256_S256x256_1_0) bitsLt_bf16_f32) slices_S256x256_S128x256_128_0 := by
  show (V m c main_v27 : Vec Ideal S128x256 .bf16) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results

theorem b1r_eq (c : Dev nD) : b1r m c = shapeCast S1x256 (b1 m c) shapeCasts_S256_S1x256 := by
  show (V m c main_v28 : Vec Ideal S1x256 .f32) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem w2r_eq (c : Dev nD) : w2r m c = truncf .bf16 (W2 m c) bitsLt_bf16_f32 := by
  show (V m c main_v29 : Vec Ideal S1x256 .bf16) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results

theorem b2r_eq (c : Dev nD) : b2r m c = shapeCast S1x1 (b2 m c) shapeCasts_S1_S1x1 := by
  show (V m c main_v30 : Vec Ideal S1x1 .f32) = _
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-! ## The score row at an edge -/

/-- COLUMN e OF THE SCORE ROW, for node numbers that are not negative, is edge e's score. -/
theorem scoreRow_apply (c : Dev nD) (hx : ∀ i, 0 ≤ (eli m c i).toInt) (e : Fin 1000000) :
    scoreRow (featD m c) (featG m c) (w1a m c) (w1b m c) (b1r m c) (w2r m c) (b2r m c) (ix2 (0 : Fin 1) (⟨e.val, by omega⟩ : Fin 1003520))
      = score (xd m c) (xg m c) (W1 m c) (b1 m c) (W2 m c) (b2 m c)
          (clampRow 20000 (by decide) (eli m c (ix2 (0 : Fin 2) e))) (clampRow 20000 (by decide) (eli m c (ix2 (1 : Fin 2) e))) := by
  have hn0 : num0 m c (ix1 e) = eli m c (ix2 (0 : Fin 2) e) := numbers0_apply (eli m c) e
  have hn1 : num1 m c (ix1 e) = eli m c (ix2 (1 : Fin 2) e) := numbers1_apply (eli m c) e
  have hD : ∀ k : Fin 128, featD m c (ix2 (⟨e.val, by omega⟩ : Fin 1003520) k)
      = xd m c (ix2 (clampRow 20000 (by decide) (eli m c (ix2 (0 : Fin 2) e))) k) := fun k => by
    rw [featD_eq, gatheredOf_apply (xd m c) (num0 m c) e k (by rw [hn0]; exact hx _), hn0]
  have hG : ∀ k : Fin 128, featG m c (ix2 (⟨e.val, by omega⟩ : Fin 1003520) k)
      = xg m c (ix2 (clampRow 20000 (by decide) (eli m c (ix2 (1 : Fin 2) e))) k) := fun k => by
    rw [featG_eq, gatheredOf_apply (xg m c) (num1 m c) e k (by rw [hn1]; exact hx _), hn1]
  have hA : ∀ (k : Fin 128) (j : Fin 256), w1a m c (ix2 k j) = W1 m c (ix2 j (lo k)) := fun k j => by
    rw [w1a_eq, upper_apply]
  have hB : ∀ (k : Fin 128) (j : Fin 256), w1b m c (ix2 k j) = W1 m c (ix2 j (hi k)) := fun k j => by
    rw [w1b_eq, lower_apply]
  have h1 : ∀ j : Fin 256, b1r m c (ix2 (0 : Fin 1) j) = b1 m c (ix1 j) := fun j => by
    rw [b1r_eq, biasRow_apply]
  have h2 : ∀ j : Fin 256, w2r m c (ix2 (0 : Fin 1) j) = W2 m c (ix2 (0 : Fin 1) j) := fun j => by
    rw [w2r_eq, truncf_apply]
  have h3 : b2r m c (ix2 (0 : Fin 1) (0 : Fin 1)) = b2 m c (ix1 (0 : Fin 1)) := by
    rw [b2r_eq, biasOne_apply]
  show (∑ j : Fin 256, w2r m c (ix2 (0 : Fin 1) j) * max ((∑ k : Fin 128, featD m c (ix2 (⟨e.val, by omega⟩ : Fin 1003520) k) * w1a m c (ix2 k j)
      + ∑ k : Fin 128, featG m c (ix2 (⟨e.val, by omega⟩ : Fin 1003520) k) * w1b m c (ix2 k j)) + b1r m c (ix2 (0 : Fin 1) j)) 0)
      + b2r m c (ix2 (0 : Fin 1) (0 : Fin 1)) = _
  simp only [hD, hG, hA, hB, h1, h2, h3]
  rfl

end Cert.KernelIdeal.Host

end
-- ==== Proof.ReferenceScore.lean ====
/-
  THE REFERENCE'S RESULT AT AN EDGE. The reference takes the two rows of node numbers, wraps a negative number
  around (adds 20000), gathers the 128 disease features and the 128 drug features of every edge, joins them into one
  row of 256, and applies the two layers. For node numbers that are not negative the wrap-around does nothing and the
  gather's own clamp picks the row, so entry (e, 0) of the result is the score of rows
  min(disease number of e, 19999) and min(drug number of e, 19999), in the arrangement that takes one sum over the
  joined row (EdgeScore's `score_of_concat`).
-/
import proofs.«430565_j47974784696844_3_alg».proof.Proof.Gen.ReferenceIdeal.Read
import proofs.«430565_j47974784696844_3_alg».proof.Proof.EdgeScore
import proofs.«430565_j47974784696844_3_alg».proof.Proof.NodeRow

noncomputable section

namespace Cert.ReferenceIdeal.RefScore

open Cert.ReferenceIdeal Cert.ReferenceIdeal.Gen Cert.ReferenceIdeal.Read Idealize.ShloMosaic
open Idealize.ShloMosaic.ValueIdx Idealize.ShloMosaic.RowGather Cert.EdgeScore Cert.NodeRow

variable (x0 x1 : (⟨S20000x128, .f32⟩ : BufTy).Contents (Elt Ideal)) (x2 : (⟨S2x1000000, .i32⟩ : BufTy).Contents (Elt Ideal))
  (x3 : (⟨S256x256, .f32⟩ : BufTy).Contents (Elt Ideal)) (x4 : (⟨S256, .f32⟩ : BufTy).Contents (Elt Ideal))
  (x5 : (⟨S1x256, .f32⟩ : BufTy).Contents (Elt Ideal)) (x6 : (⟨S1, .f32⟩ : BufTy).Contents (Elt Ideal))

/-! ## The node numbers -/

/-- The disease numbers as a vector: entry e is the table's entry (0, e). -/
theorem num0_apply (e : Fin 1000000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => show e.val % 1000000 = e.val; omega

/-- The drug numbers: entry e is the table's entry (1, e). -/
theorem num1_apply (e : Fin 1000000) : val_main_v10 (F := Ideal) x2 (ix1 e) = x2 (ix2 (1 : Fin 2) e) := by
  rw [val_main_v10_apply, val_main_v9_apply]
  refine congrArg x2 (funext fun a => Fin.ext ?_)
  match a with
  | ⟨0, _⟩ => rfl
  | ⟨1, _⟩ => show e.val % 1000000 = e.val; omega

/-- A disease number that is not negative survives the wrap-around. -/
theorem wrapped0_apply (e : Fin 1000000) (h : 0 ≤ (x2 (ix2 (0 : Fin 2) e)).toInt) :
    val_main_v6 (F := Ideal) x2 (ix1 e) = x2 (ix2 (0 : Fin 2) e) := by
  rw [val_main_v6_apply, val_main_v3_apply, val_main_v5_apply, val_main_v2_apply, val_main_v4_apply, val_main_c_apply,
    val_main_c_0_apply, num0_apply]
  exact wrap_of_nonneg _ h

theorem wrapped1_apply (e : Fin 1000000) (h : 0 ≤ (x2 (ix2 (1 : Fin 2) e)).toInt) :
    val_main_v15 (F := Ideal) x2 (ix1 e) = x2 (ix2 (1 : Fin 2) e) := by
  rw [val_main_v15_apply, val_main_v12_apply, val_main_v14_apply, val_main_v11_apply, val_main_v13_apply, val_main_c_1_apply,
    val_main_c_2_apply, num1_apply]
  exact wrap_of_nonneg _ h

/-! ## The gathered rows and the joined row -/

/-- Edge e's disease features: the row its number names. -/
theorem gathered0_apply (e : Fin 1000000) (k : Fin 128) (h : 0 ≤ (x2 (ix2 (0 : Fin 2) e)).toInt) :
    val_main_v8 (F := Ideal) x0 x2 (ix2 e k) = x0 (ix2 (clampRow 20000 (by decide) (x2 (ix2 (0 : Fin 2) e))) k) := by
  unfold val_main_v8
  rw [gather_rows_apply _ rfl rfl rfl rfl rfl x0 _ e k (by decide), val_main_v7_apply]
  have hi : idx_main_v7 (ix2 e (0 : Fin 1)) = ix1 e := funext fun a => by match a with | ⟨0, _⟩ => rfl
  rw [hi, wrapped0_apply x2 e h]

theorem gathered1_apply (e : Fin 1000000) (k : Fin 128) (h : 0 ≤ (x2 (ix2 (1 : Fin 2) e)).toInt) :
    val_main_v17 (F := Ideal) x1 x2 (ix2 e k) = x1 (ix2 (clampRow 20000 (by decide) (x2 (ix2 (1 : Fin 2) e))) k) := by
  unfold val_main_v17
  rw [gather_rows_apply _ rfl rfl rfl rfl rfl x1 _ e k (by decide), val_main_v16_apply]
  have hi : idx_main_v16 (ix2 e (0 : Fin 1)) = ix1 e := funext fun a => by match a with | ⟨0, _⟩ => rfl
  rw [hi, wrapped1_apply x2 e h]

/-- The joined row's first half is the disease features, -/
theorem joined_lo (e : Fin 1000000) (k : Fin 128) :
    val_main_v18 (F := Ideal) x0 x1 x2 (ix2 e (lo k)) = val_main_v8 (F := Ideal) x0 x2 (ix2 e k) := by
  unfold val_main_v18
  exact concatenate_pair_apply_left (t := S1000000x256) (s₁ := S1000000x128) (s₂ := S1000000x128) (1 : Fin 2)
    (val_main_v8 (F := Ideal) x0 x2) (val_main_v17 (F := Ideal) x1 x2)
    concatenates_S1000000x128_S1000000x128_S1000000x256_d1 (ix2 e (lo k)) rfl (ix2 e k)
    (fun b => by match b with | ⟨0, _⟩ => rfl | ⟨1, _⟩ => rfl)

/-- and its second half the drug features. -/
theorem joined_hi (e : Fin 1000000) (k : Fin 128) :
    val_main_v18 (F := Ideal) x0 x1 x2 (ix2 e (hi k)) = val_main_v17 (F := Ideal) x1 x2 (ix2 e k) := by
  unfold val_main_v18
  exact concatenate_pair_apply_right (t := S1000000x256) (s₁ := S1000000x128) (s₂ := S1000000x128) (1 : Fin 2)
    (val_main_v8 (F := Ideal) x0 x2) (val_main_v17 (F := Ideal) x1 x2)
    concatenates_S1000000x128_S1000000x128_S1000000x256_d1 (ix2 e (hi k)) rfl rfl (ix2 e k)
    (fun b hb => by match b, hb with | ⟨0, _⟩, _ => rfl | ⟨1, _⟩, hb => exact absurd rfl hb)
    (by show k.val + 128 = 128 + k.val; omega)

/-! ## The two layers -/

/-- The hidden unit j of edge e before the bias: one sum over the joined row against row j of W1. -/
theorem first_layer_apply (e : Fin 1000000) (j : Fin 256) :
    val_main_v20 (F := Ideal) x0 x1 x2 x3 (ix2 e j)
      = ∑ k : Fin 256, val_main_v18 (F := Ideal) x0 x1 x2 (ix2 e k) * x3 (ix2 j k) := by
  rw [val_main_v20_apply]
  refine Finset.sum_congr rfl fun k _ => ?_
  rw [val_main_v19_apply]
  have hl : lidx_main_v20 (ix2 e j) k = ix2 e k := funext fun a => by match a with | ⟨0, _⟩ => rfl | ⟨1, _⟩ => rfl
  have hr : idx_main_v19 (ridx_main_v20 (ix2 e j) k) = ix2 j k := funext fun a => by match a with | ⟨0, _⟩ => rfl | ⟨1, _⟩ => rfl
  rw [hl, hr]

/-- The hidden unit j of edge e. -/
theorem hidden_apply (e : Fin 1000000) (j : Fin 256) :
    val_main_v24 (F := Ideal) x0 x1 x2 x3 x4 (ix2 e j)
      = max ((∑ k : Fin 256, val_main_v18 (F := Ideal) x0 x1 x2 (ix2 e k) * x3 (ix2 j k)) + x4 (ix1 j)) 0 := by
  rw [val_main_v24_apply, val_main_v23_apply, first_layer_apply, val_main_v22_apply, val_main_v21_apply,
    val_main_call0_v0_apply, val_main_call0_cst_apply]
  have hb : idx_main_v21 (idx_main_v22 (ix2 e j)) = ix1 j := funext fun a => by match a with | ⟨0, _⟩ => rfl
  rw [hb]
  show max _ (Ideal.ofBits .f32 0x00000000#32) = _
  rw [Ideal.ofBits_zero_f32]
  rfl

/-- THE RESULT AT EDGE e, for node numbers that are not negative. -/
theorem result_apply (hx : ∀ i, 0 ≤ (x2 i).toInt) (e : Fin 1000000) :
    val_main_v29 (F := Ideal) x0 x1 x2 x3 x4 x5 x6 (ix2 e (0 : Fin 1))
      = score x0 x1 x3 x4 x5 x6 (clampRow 20000 (by decide) (x2 (ix2 (0 : Fin 2) e))) (clampRow 20000 (by decide) (x2 (ix2 (1 : Fin 2) e))) := by
  rw [val_main_v29_apply, val_main_v26_apply, val_main_v28_apply, val_main_v27_apply]
  have hb : idx_main_v27 (idx_main_v28 (ix2 e (0 : Fin 1))) = ix1 (0 : Fin 1) := funext fun a => by match a with | ⟨0, _⟩ => rfl
  rw [hb]
  refine Eq.trans ?_ (score_of_concat x0 x1 x3 x4 x5 x6 _ _ (fun k => val_main_v18 (F := Ideal) x0 x1 x2 (ix2 e k))
    (fun k => (joined_lo x0 x1 x2 e k).trans (gathered0_apply x0 x2 e k (hx _)))
    (fun k => (joined_hi x0 x1 x2 e k).trans (gathered1_apply x1 x2 e k (hx _))))
  show (∑ j : Fin 256, _) + _ = (∑ j : Fin 256, _) + _
  congr 1
  refine Finset.sum_congr rfl fun j _ => ?_
  have hl : lidx_main_v26 (ix2 e (0 : Fin 1)) j = ix2 e j := funext fun a => by match a with | ⟨0, _⟩ => rfl | ⟨1, _⟩ => rfl
  have hr : idx_main_v25 (ridx_main_v26 (ix2 e (0 : Fin 1)) j) = ix2 (0 : Fin 1) j := funext fun a => by match a with | ⟨0, _⟩ => rfl | ⟨1, _⟩ => rfl
  rw [hl, val_main_v25_apply, hr, hidden_apply]

end Cert.ReferenceIdeal.RefScore

end
-- ==== Proof.lean ====
/-
  A LINK-PREDICTION HEAD: FOR EACH OF 1000000 EDGES, A TWO-LAYER PERCEPTRON OF THE TWO END NODES' FEATURES.

  Both programs compute, for edge e with disease node number a(e) and drug node number b(e),

      score(e) = Σ_j W2[0, j] · max(Σ_{k<128} xd[a, k] · W1[j, k] + Σ_{k<128} xg[b, k] · W1[j, 128 + k] + b1[j], 0) + b2[0]

  on the extended reals. The reference gathers the two feature rows, joins them into one row of 256 and applies the
  layers with one sum over the joined row. The kernel program gathers the rows on the host, pads the edges to 245
  tiles of 4096, and its kernel applies the layers tile by tile, the first layer as two products (one per half of
  the row) and the second as a product on both operands' last axis, leaving a 1 × 1003520 row that the host turns
  into a column and cuts to 1000000 entries. The sums agree because a sum over 256 terms is the sum of its halves
  and a product commutes; the narrowings to bf16 are the identity on the extended reals.

  WHICH ROWS. The reference reads node number v with Python's wrap-around (v + 20000 when v < 0); the kernel program
  first clips v into [0, 19999]. The gather itself clamps into [0, 19999] on both sides. For v ≥ 0 both read row
  min(v, 19999); for −20000 < v < 0 the reference reads row v + 20000 and the kernel program row 0. The precondition
  therefore says, beside the finiteness of the float inputs, that no node number is negative; the proof uses that
  conjunct and not the finiteness.

  The three frames are the generated ones (the reference's is its generated run with the result dropped), the
  idealization rewrote nothing, and the value claim sets the kernel program's run (KernelRun, over KernelBlocks and
  KernelHost) beside the reference's generated run read at an index (ReferenceScore).
-/
import proofs.«430565_j47974784696844_3_alg».proof.Defs
import proofs.«430565_j47974784696844_3_alg».proof.Proof.Gen.Kernel
import proofs.«430565_j47974784696844_3_alg».proof.Proof.Gen.Kernel.Skeleton
import proofs.«430565_j47974784696844_3_alg».proof.Proof.Gen.Kernel.Launch
import proofs.«430565_j47974784696844_3_alg».proof.Proof.Gen.Kernel.Points
import proofs.«430565_j47974784696844_3_alg».proof.Proof.Gen.Kernel.Frame
import proofs.«430565_j47974784696844_3_alg».proof.Proof.Gen.KernelIdeal
import proofs.«430565_j47974784696844_3_alg».proof.Proof.Gen.KernelIdeal.Skeleton
import proofs.«430565_j47974784696844_3_alg».proof.Proof.Gen.KernelIdeal.Launch
import proofs.«430565_j47974784696844_3_alg».proof.Proof.Gen.KernelIdeal.Points
import proofs.«430565_j47974784696844_3_alg».proof.Proof.Gen.KernelIdeal.Frame
import proofs.«430565_j47974784696844_3_alg».proof.Proof.Gen.ReferenceIdeal
import proofs.«430565_j47974784696844_3_alg».proof.Proof.Gen.Pre_finite_inputs
import proofs.«430565_j47974784696844_3_alg».proof.Proof.Gen.ReferenceIdeal.Run
import proofs.«430565_j47974784696844_3_alg».proof.Proof.Gen.ReferenceIdeal.Read
import proofs.«430565_j47974784696844_3_alg».proof.Proof.IndexDomain
import proofs.«430565_j47974784696844_3_alg».proof.Proof.KernelRun
import proofs.«430565_j47974784696844_3_alg».proof.Proof.KernelHost
import proofs.«430565_j47974784696844_3_alg».proof.Proof.ReferenceScore
import Idealize.ShloMosaic.Adequacy
import Idealize.ShloMosaic.Init

noncomputable section

namespace Cert.Proof

open Idealize.ShloMosaic Idealize.ShloMosaic.ValueIdx Idealize.SL.Sem

/-- The word-level kernel program runs and keeps its arguments: the generated frame. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the column of edge scores: entry (e, 0) is the score of the rows that edge e's two node
    numbers, which the precondition makes non-negative, name after the gather's clamp. -/
theorem algebraic : Cert.algebraic_KernelIdeal_ReferenceIdeal := by
  intro m ρ m' ρ' hpre hagree
  have hx : ∀ (c : Dev Cert.KernelIdeal.nD) i, 0 ≤ (Cert.KernelIdeal.Host.eli m c i).toInt := fun c i =>
    Cert.IndexDomain.nonneg_of_pre _ _ _ _ _ _ _ (hpre c) i
  refine ⟨fun c => Cert.KernelIdeal.Run.columnOf (Cert.KernelIdeal.Blocks.scoreRow (Cert.KernelIdeal.Blocks.featD m c)
      (Cert.KernelIdeal.Blocks.featG m c) (Cert.KernelIdeal.Blocks.w1a m c) (Cert.KernelIdeal.Blocks.w1b m c)
      (Cert.KernelIdeal.Blocks.b1r m c) (Cert.KernelIdeal.Blocks.w2r m c) (Cert.KernelIdeal.Blocks.b2r m c)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq (F := Ideal) _ _ _ _ _ _ _).trans ?_
  rw [(hagree c).1, (hagree c).2.1, (hagree c).2.2.1, (hagree c).2.2.2.1, (hagree c).2.2.2.2.1, (hagree c).2.2.2.2.2.1,
    (hagree c).2.2.2.2.2.2]
  funext i
  obtain ⟨e, z, rfl⟩ : ∃ (e : Fin 1000000) (z : Fin 1), i = ix2 e z := ⟨i 0, i 1, eq_ix2 i⟩
  obtain rfl : z = 0 := Subsingleton.elim _ _
  show _ = Cert.KernelIdeal.Run.columnOf _ (ix2 e (0 : Fin 1))
  rw [Cert.ReferenceIdeal.RefScore.result_apply _ _ _ _ _ _ _ (hx c) e, Cert.KernelIdeal.Run.columnOf_apply,
    Cert.KernelIdeal.Host.scoreRow_apply m c (hx c) e]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
